-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S64x1024 : Shape := ⟨2, ![64, 1024]⟩
abbrev S64 : Shape := ⟨1, ![64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x1024 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1024 .f32 := Host.absf main_arg8
  let main_cst_14 : FVec F S_ .f32 := constant S_ .f32 0x7F800000#32
  let main_v40 : FVec F S64x1024 .f32 := broadcastInDim S64x1024 ![] bcast_S_S64x1024 main_cst_14
  let main_v41 : IVec S64x1024 1 := cmpf .olt main_v39 main_v40
  let main_c_15 : IVec S_ 1 := constantI S_ 1 1#1
  let main_v42 : IVec S_ 1 := (fun x v => Host.reduce IntOp.andi x v reducesTo_S64x1024_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x1024 .f32) (main_arg5 : FVec F S64 .f32) (main_arg6 : FVec F S64x1024 .f32) (main_arg7 : FVec F S64 .f32) (main_arg8 : FVec F S64x1024 .f32) (main_arg9 : FVec F S64 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S4x2048x1024 .f32) (main_arg3 : FVec F S4x2048x2048 .f32) (main_arg4 : FVec F S64x1024 .f32) (main_arg5 : FVec F S64 .f32) (main_arg6 : FVec F S64x1024 .f32) (main_arg7 : FVec F S64 .f32) (main_arg8 : FVec F S64x1024 .f32) (main_arg9 : FVec F S64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S4x2048x2048 : Shape := ⟨3, ![4, 2048, 2048]⟩
abbrev S64x1024 : Shape := ⟨2, ![64, 1024]⟩
abbrev S64 : Shape := ⟨1, ![64]⟩
abbrev S4x2048x64 : Shape := ⟨3, ![4, 2048, 64]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1x256x64 : Shape := ⟨3, ![1, 256, 64]⟩
abbrev S2048x64 : Shape := ⟨2, ![2048, 64]⟩
abbrev S2048x1024 : Shape := ⟨2, ![2048, 1024]⟩
abbrev S1x64 : Shape := ⟨2, ![1, 64]⟩
abbrev S256x1024 : Shape := ⟨2, ![256, 1024]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S4x2048x64, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x256x2048, .f32⟩
  | .local _ .vmem, ⟨5, _⟩ => ⟨S1x256x2048, .f32⟩
  | .local _ .vmem, ⟨6, _⟩ => ⟨S64x1024, .f32⟩
  | .local _ .vmem, ⟨7, _⟩ => ⟨S64, .f32⟩
  | .local _ .vmem, ⟨8, _⟩ => ⟨S64x1024, .f32⟩
  | .local _ .vmem, ⟨9, _⟩ => ⟨S64, .f32⟩
  | .local _ .vmem, ⟨10, _⟩ => ⟨S64x1024, .f32⟩
  | .local _ .vmem, ⟨11, _⟩ => ⟨S64, .f32⟩
  | .local _ .vmem, ⟨12, _⟩ => ⟨S1x256x64, .f32⟩
  | .local _ .vmem, ⟨13, _⟩ => ⟨S1x256x64, .f32⟩
  | .local _ .vmem, ⟨14, _⟩ => ⟨S2048x64, .f32⟩
  | .local _ .vmem, ⟨15, _⟩ => ⟨S2048x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S64x1024_S64x1024_0_0 : ∀ a, (![0, 0] : Fin 2 → Nat) a + S64x1024.size a ≤ S64x1024.size a
  h_S64x1024 : 0 < S64x1024.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x64_S256x64 : S1x64.Broadcasts S256x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S64x1024_S2048x64_1_1_0_0_n_n_wf : DotDims.WF S2048x1024 S64x1024 S2048x64 [1] [1] [0] [0] [] []
  dot_S256x1024_S64x1024_S256x64_1_1_0_0_n_n_wf : DotDims.WF S256x1024 S64x1024 S256x64 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x2048x1024.size a
  hwx0_2 : ∀ i : grid0.Coords, EltTy.bits .f32 = 32 ∨ (Rect.block (s := S4x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .f32 = 32 ∨ (Rect.block (s := S4x2048x2048) S1x256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .f32 = 32 ∨ (Rect.block (s := S64x1024) S64x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x1024.size a
  hwx0_8 : ∀ i : grid0.Coords, EltTy.bits .f32 = 32 ∨ (Rect.block (s := S64x1024) S64x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x64.size a ≤ S4x2048x64.size a
  hwx0_10 : ∀ i : grid0.Coords, EltTy.bits .f32 = 32 ∨ (Rect.block (s := S4x2048x64) S1x256x64.size (cc0_transform_10 i) (hinb0_10 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S256x1024_S64x1024_S256x64_1_1_0_0_n_n : DotDims S256x1024 S64x1024 S256x64 where
  lhsContracting := [1]
  rhsContracting := [1]
  lhsNonContracting := [0]
  rhsNonContracting := [0]
  lhsBatch := []
  rhsBatch := []
  wf := dot_S256x1024_S64x1024_S256x64_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x256x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S64x1024 : Shape := ⟨2, ![64, 1024]⟩
abbrev S64 : Shape := ⟨1, ![64]⟩
abbrev S4x2048x64 : Shape := ⟨3, ![4, 2048, 64]⟩
abbrev S1x1x64 : Shape := ⟨3, ![1, 1, 64]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S4x2048x64, .f32⟩
  | .hbm, ⟨11, _⟩ => ⟨S1x1x64, .f32⟩
  | .hbm, ⟨12, _⟩ => ⟨S4x2048x64, .f32⟩
  | .hbm, ⟨13, _⟩ => ⟨S4x2048x64, .f32⟩
  | .hbm, ⟨14, _⟩ => ⟨S4x2048x64, .f32⟩
  | .hbm, ⟨15, _⟩ => ⟨S1x1x64, .f32⟩
  | .hbm, ⟨16, _⟩ => ⟨S4x2048x64, .f32⟩
  | .hbm, ⟨17, _⟩ => ⟨S4x2048x64, .f32⟩
  | .hbm, ⟨18, _⟩ => ⟨S4x2048x64, .f32⟩
  | .hbm, ⟨19, _⟩ => ⟨S1x1x64, .f32⟩
  | .hbm, ⟨20, _⟩ => ⟨S4x2048x64, .f32⟩
  | .hbm, ⟨21, _⟩ => ⟨S4x2048x64, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S64x1024_S4x2048x64_2_1_01_0_n_n_wf : DotDims.WF S4x2048x1024 S64x1024 S4x2048x64 [2] [1] [0, 1] [0] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.Pieces.lean ====
import proofs.«148479_j1314259993021_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each control case of the kernel body leaves in the output tile's buffer and in the two carried
    projection buffers, as the body's stored values of the point's input blocks.

    The body has two cases. At the first query tile of a batch it projects that batch's keys and values into the two
    carried buffers, then computes the attention tile from them; at every other tile it finds the buffers as the tile
    before left them and only computes the attention tile. -/

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the first carried buffer ends at the key projection of the batch's key block. -/
theorem keyProj_A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x256x64 .f32) (harg12 : arg12.IsWhole) (arg13 : Memref sig .tc .vmem S2048x64 .f32) (harg13 : arg13.IsWhole) (arg14 : Memref sig .tc .vmem S2048x64 .f32) (harg14 : arg14.IsWhole) (hc0 : cond0_0 i)
    (x0 : Vec F S1x256x1024 .f32) (x1 : Vec F S1x2048x1024 .f32) (x2 : Vec F S1x2048x1024 .f32) (x3 : Vec F S1x256x2048 .f32) (x4 : Vec F S64x1024 .f32) (x5 : Vec F S64 .f32) (x6 : Vec F S64x1024 .f32) (x7 : Vec F S64 .f32) (x8 : Vec F S64x1024 .f32) (x9 : Vec F S64 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay2 x1 x6 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x256x1024) hz3, View.ld_unit_zero (S := S1x2048x1024) hz3, View.ld_unit_zero (S := S1x256x2048) hz3,
    View.ld_unit_zero (S := S64x1024) hz2, View.ld_unit_zero (S := S64) hz1, View.ld_unit_zero (S := S2048x64) hz2]

/-- First tile of a batch: the second carried buffer ends at the value projection of the batch's value block. -/
theorem valProj_A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x256x64 .f32) (harg12 : arg12.IsWhole) (arg13 : Memref sig .tc .vmem S2048x64 .f32) (harg13 : arg13.IsWhole) (arg14 : Memref sig .tc .vmem S2048x64 .f32) (harg14 : arg14.IsWhole) (hc0 : cond0_0 i)
    (x0 : Vec F S1x256x1024 .f32) (x1 : Vec F S1x2048x1024 .f32) (x2 : Vec F S1x2048x1024 .f32) (x3 : Vec F S1x256x2048 .f32) (x4 : Vec F S64x1024 .f32) (x5 : Vec F S64 .f32) (x6 : Vec F S64x1024 .f32) (x7 : Vec F S64 .f32) (x8 : Vec F S64x1024 .f32) (x9 : Vec F S64 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay3 x2 x8 x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x256x1024) hz3, View.ld_unit_zero (S := S1x2048x1024) hz3, View.ld_unit_zero (S := S1x256x2048) hz3,
    View.ld_unit_zero (S := S64x1024) hz2, View.ld_unit_zero (S := S64) hz1, View.ld_unit_zero (S := S2048x64) hz2]

/-- First tile of a batch: the output tile is attention of the query tile against the projections just stored
    (the body reads both carried buffers back after storing them). -/
theorem tile_A (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x256x64 .f32) (harg12 : arg12.IsWhole) (arg13 : Memref sig .tc .vmem S2048x64 .f32) (harg13 : arg13.IsWhole) (arg14 : Memref sig .tc .vmem S2048x64 .f32) (harg14 : arg14.IsWhole) (hc0 : cond0_0 i)
    (x0 : Vec F S1x256x1024 .f32) (x1 : Vec F S1x2048x1024 .f32) (x2 : Vec F S1x2048x1024 .f32) (x3 : Vec F S1x256x2048 .f32) (x4 : Vec F S64x1024 .f32) (x5 : Vec F S64 .f32) (x6 : Vec F S64x1024 .f32) (x7 : Vec F S64 .f32) (x8 : Vec F S64x1024 .f32) (x9 : Vec F S64 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay1 (k0_pay4 x0 x4 x5 (k0_pay2 x1 x6 x7) x3 (k0_pay3 x2 x8 x9)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x256x1024) hz3, View.ld_unit_zero (S := S1x2048x1024) hz3, View.ld_unit_zero (S := S1x256x2048) hz3,
    View.ld_unit_zero (S := S64x1024) hz2, View.ld_unit_zero (S := S64) hz1, View.ld_unit_zero (S := S2048x64) hz2, View.readCov_unit_zero (S := S2048x64) _ hz2]

/-- Any other tile: the output tile is attention of the query tile against the projections the carried buffers hold. -/
theorem tile_B (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S64x1024 .f32) (harg6 : arg6.IsWhole) (arg7 : Memref sig .tc .vmem S64 .f32) (harg7 : arg7.IsWhole) (arg8 : Memref sig .tc .vmem S64x1024 .f32) (harg8 : arg8.IsWhole) (arg9 : Memref sig .tc .vmem S64 .f32) (harg9 : arg9.IsWhole) (arg10 : Memref sig .tc .vmem S64x1024 .f32) (harg10 : arg10.IsWhole) (arg11 : Memref sig .tc .vmem S64 .f32) (harg11 : arg11.IsWhole) (arg12 : Memref sig .tc .vmem S1x256x64 .f32) (harg12 : arg12.IsWhole) (arg13 : Memref sig .tc .vmem S2048x64 .f32) (harg13 : arg13.IsWhole) (arg14 : Memref sig .tc .vmem S2048x64 .f32) (harg14 : arg14.IsWhole) (hc0 : ¬cond0_0 i)
    (x0 : Vec F S1x256x1024 .f32) (x1 : Vec F S1x2048x1024 .f32) (x2 : Vec F S1x2048x1024 .f32) (x3 : Vec F S1x256x2048 .f32) (x4 : Vec F S64x1024 .f32) (x5 : Vec F S64 .f32) (x6 : Vec F S64x1024 .f32) (x7 : Vec F S64 .f32) (x8 : Vec F S64x1024 .f32) (x9 : Vec F S64 .f32) (xs0 : Vec F S2048x64 .f32) (xs1 : Vec F S2048x64 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = k0_pay1 (k0_pay4 x0 x4 x5 xs0 x3 xs1) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x256x1024) hz3, View.ld_unit_zero (S := S1x2048x1024) hz3, View.ld_unit_zero (S := S1x256x2048) hz3,
    View.ld_unit_zero (S := S64x1024) hz2, View.ld_unit_zero (S := S64) hz1, View.ld_unit_zero (S := S2048x64) hz2, harg13.read_unread, harg14.read_unread]

end Cert.KernelIdeal.Pieces

end
-- ==== Proof.Spec.lean ====
/-
  Single-head scaled dot-product attention with an additive mask penalty, as ONE function of the ten
  argument arrays over the extended reals.

  For batch b, query row s and output feature n:
    qp[b,s,·], kp[b,t,·], vp[b,t,·]  are the affine projections  x[b,s,:] · w[n,:] + bias[n]  of q, k, v;
    score[b,s,t] = (∑ₙ qp[b,s,n] · kp[b,t,n]) · (1/8) + mask[b,s,t] · (−10⁹);
    out[b,s,n]   = ∑ₜ softmaxₜ(score[b,s,·]) · vp[b,t,n],
  the softmax written with the row maximum subtracted: exp(S t − max S) / ∑ᵤ exp(S u − max S).
  The three literals stay the 32-bit words both programs print; only two facts about words are used:
  the word of 8 divides as the word of 1/8 multiplies, and the word 0xFF800000 is −∞, the unit of max.
-/
import Idealize.ShloMosaic.PureOps.Ideal
import Idealize.ShloMosaic.Lib.ValueIdx

noncomputable section

open scoped BigOperators

namespace Cert.Attn

open Idealize.ShloMosaic Idealize.ShloMosaic.ValueIdx

/-! ## Shapes of the arguments and of the result -/

/-- q, k, v : [batch 4, sequence 2048, model width 1024]. -/
abbrev SX : Shape := ⟨3, ![4, 2048, 1024]⟩
/-- mask : [4, 2048 queries, 2048 keys]. -/
abbrev SM : Shape := ⟨3, ![4, 2048, 2048]⟩
/-- a projection's weight : [64 features, 1024]. -/
abbrev SW : Shape := ⟨2, ![64, 1024]⟩
/-- a projection's bias : [64]. -/
abbrev SB : Shape := ⟨1, ![64]⟩
/-- the result : [4, 2048, 64]. -/
abbrev SO : Shape := ⟨3, ![4, 2048, 64]⟩

/-! ## The three literals, as the words both programs print -/

/-- The score's scale, the word of 0.125 = 1/√64. -/
abbrev cScale : EReal := Ideal.ofBits .f32 0x3E000000#32
/-- The mask penalty, the word of −10⁹ (rounded to f32; the same word on both sides, never evaluated). -/
abbrev cPen : EReal := Ideal.ofBits .f32 0xCE6E6B28#32
/-- The word of −∞, from which both row maxima start. -/
abbrev cNegInf : EReal := Ideal.ofBits .f32 0xFF800000#32

/-- The word 0x41000000 is the real 8. -/
theorem ofBits_eight : Ideal.ofBits .f32 0x41000000#32 = ((8 : ℝ) : EReal) := by
  simp [Ideal.ofBits, Ideal.ieee, -EReal.coe_mul]; norm_num

/-- The word 0x3E000000 is the real 1/8. -/
theorem cScale_eq : cScale = ((1 / 8 : ℝ) : EReal) := by
  simp [cScale, Ideal.ofBits, Ideal.ieee, -EReal.coe_mul]; norm_num

/-- The word 0xFF800000 is −∞. -/
theorem cNegInf_eq : cNegInf = ⊥ := by
  simp [cNegInf, Ideal.ofBits, Ideal.ieee]

/-- Dividing by the word of 8 is multiplying by the word of 1/8, on every extended real. -/
theorem div_eight (x : EReal) : Ideal.div x (Ideal.ofBits .f32 0x41000000#32) = x * cScale := by
  rw [ofBits_eight, cScale_eq]; exact Ideal.div_coe (by norm_num) x

/-- −∞ is the unit of max: a further maximum with it changes nothing. -/
theorem max_negInf (x : EReal) : max cNegInf x = x := by
  rw [cNegInf_eq]; exact max_eq_right bot_le

/-- The word of +0.0 is 0. -/
theorem ofBits_zero : Ideal.ofBits .f32 0x00000000#32 = 0 := by
  simp [Ideal.ofBits, Ideal.ieee]

/-! ## The function -/

/-- An affine projection read at (b, s, n): row s of batch b of x against row n of w, plus bias n. -/
def proj (x : SX.Idx → EReal) (w : SW.Idx → EReal) (bias : SB.Idx → EReal) (b : Fin 4) (s : Fin 2048) (n : Fin 64) : EReal :=
  (∑ d : Fin 1024, x (ix3 b s d) * w (ix2 n d)) + bias (ix1 n)

/-- The same projection read off ONE staged block of R rows (a leading unit axis): row p against row n of w, plus bias n. -/
def projRow {R : Nat} (x : (⟨3, ![1, R, 1024]⟩ : Shape).Idx → EReal) (w : SW.Idx → EReal) (bias : SB.Idx → EReal)
    (p : Fin R) (n : Fin 64) : EReal :=
  (∑ d : Fin 1024, x (ix3 (0 : Fin 1) p d) * w (ix2 n d)) + bias (ix1 n)

/-- The score of query row s against key row t in batch b: the scaled dot product of the projected rows plus
    the mask's penalty. -/
def score (q k : SX.Idx → EReal) (mask : SM.Idx → EReal) (wq : SW.Idx → EReal) (bq : SB.Idx → EReal)
    (wk : SW.Idx → EReal) (bk : SB.Idx → EReal) (b : Fin 4) (s t : Fin 2048) : EReal :=
  (∑ n : Fin 64, proj q wq bq b s n * proj k wk bk b t n) * cScale + mask (ix3 b s t) * cPen

/-- The maximum of a row of 2048 scores, from −∞. -/
def rowMax (S : Fin 2048 → EReal) : EReal := (Finset.univ : Finset (Fin 2048)).fold max cNegInf S

/-- A row's unnormalised softmax weight at t. -/
def expShift (S : Fin 2048 → EReal) (t : Fin 2048) : EReal := Ideal.exp (S t - rowMax S)

/-- One entry of attention's result: the softmax of a row of scores against a column of values. -/
def softmaxDot (S V : Fin 2048 → EReal) : EReal :=
  ∑ t : Fin 2048, Ideal.div (expShift S t) (∑ u : Fin 2048, expShift S u) * V t

/-- Attention read at (b, s, n). -/
def attnAt (q k v : SX.Idx → EReal) (mask : SM.Idx → EReal) (wq : SW.Idx → EReal) (bq : SB.Idx → EReal)
    (wk : SW.Idx → EReal) (bk : SB.Idx → EReal) (wv : SW.Idx → EReal) (bv : SB.Idx → EReal)
    (b : Fin 4) (s : Fin 2048) (n : Fin 64) : EReal :=
  softmaxDot (fun t => score q k mask wq bq wk bk b s t) (fun t => proj v wv bv b t n)

/-- Attention as one array of the ten arguments. -/
def attn (q k v : SX.Idx → EReal) (mask : SM.Idx → EReal) (wq : SW.Idx → EReal) (bq : SB.Idx → EReal)
    (wk : SW.Idx → EReal) (bk : SB.Idx → EReal) (wv : SW.Idx → EReal) (bv : SB.Idx → EReal) : SO.Idx → EReal :=
  fun i => attnAt q k v mask wq bq wk bk wv bv (i 0) (i 1) (i 2)

end Cert.Attn

end
-- ==== Proof.Blocks.lean ====
import proofs.«148479_j1314259993021_1_alg».proof.Proof.Gen.KernelIdeal.Frame
import proofs.«148479_j1314259993021_1_alg».proof.Proof.Spec
import Idealize.ShloMosaic.Lib.Pipeline.Value
import Idealize.ShloMosaic.Lib.ValueIdx

noncomputable section

open scoped BigOperators

open Idealize.ShloMosaic Idealize.ShloMosaic.TcCoe Idealize.SL.Sem

/-! The grid is 4 batches × 8 query tiles, walked batch by batch: point t is tile t % 8 of batch t / 8.
    At point t the query and mask windows stage rows 256·(t % 8) … of batch t / 8, the key and value windows the
    whole of batch t / 8, the six weight and bias windows their whole arrays, and the output window receives rows
    256·(t % 8) … of batch t / 8. This module reads each staged block at an index in its argument array, and from
    that the projection of a staged block as the projection of the array. -/

namespace Cert.KernelIdeal.Blocks

open Cert.KernelIdeal Cert.KernelIdeal.Gen Idealize.ShloMosaic.ValueIdx Cert.Attn

variable (m : (ℓ : Loc nD τ sig) → Buf (Elt Ideal) ℓ)

/-- The batch a grid point works on. -/
def batchOf (t : Fin cfg0.N) : Fin 4 := ⟨t.val / 8, by have h := t.isLt; have hN : cfg0.N = 32 := N_0; omega⟩

/-- The sequence row of row p of the query tile a grid point works on. -/
def rowOf (t : Fin cfg0.N) (p : Fin 256) : Fin 2048 := ⟨256 * (t.val % 8) + p.val, by have h := p.isLt; omega⟩

/-- The printed index maps, decided over the 32 points. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 2) = 0 ∧ win0_4.index t (1 : Fin 2) = 0)
    ∧ (win0_5.index t (0 : Fin 1) = 0)
    ∧ (win0_6.index t (0 : Fin 2) = 0 ∧ win0_6.index t (1 : Fin 2) = 0)
    ∧ (win0_7.index t (0 : Fin 1) = 0)
    ∧ (win0_8.index t (0 : Fin 2) = 0 ∧ win0_8.index t (1 : Fin 2) = 0)
    ∧ (win0_9.index t (0 : Fin 1) = 0)
    ∧ (win0_10.index t (0 : Fin 3) = t.val / 8 ∧ win0_10.index t (1 : Fin 3) = t.val % 8 ∧ win0_10.index t (2 : Fin 3) = 0) :=
  (by decide +kernel : ∀ t : Fin grid0.N, _)

/-! ## The staged blocks, each named at its literal shape -/

abbrev qblk (c : Dev nD) (t : Fin cfg0.N) : Vec Ideal S1x256x1024 .f32 := iblk m c 0 t
abbrev kblk (c : Dev nD) (t : Fin cfg0.N) : Vec Ideal S1x2048x1024 .f32 := iblk m c 1 t
abbrev vblk (c : Dev nD) (t : Fin cfg0.N) : Vec Ideal S1x2048x1024 .f32 := iblk m c 2 t
abbrev mblk (c : Dev nD) (t : Fin cfg0.N) : Vec Ideal S1x256x2048 .f32 := iblk m c 3 t
abbrev wqblk (c : Dev nD) (t : Fin cfg0.N) : Vec Ideal S64x1024 .f32 := iblk m c 4 t
abbrev bqblk (c : Dev nD) (t : Fin cfg0.N) : Vec Ideal S64 .f32 := iblk m c 5 t
abbrev wkblk (c : Dev nD) (t : Fin cfg0.N) : Vec Ideal S64x1024 .f32 := iblk m c 6 t
abbrev bkblk (c : Dev nD) (t : Fin cfg0.N) : Vec Ideal S64 .f32 := iblk m c 7 t
abbrev wvblk (c : Dev nD) (t : Fin cfg0.N) : Vec Ideal S64x1024 .f32 := iblk m c 8 t
abbrev bvblk (c : Dev nD) (t : Fin cfg0.N) : Vec Ideal S64 .f32 := iblk m c 9 t

/-! ## Each block read at an index of its array -/

theorem qblk_apply (c : Dev nD) (t : Fin cfg0.N) (p : Fin 256) (d : Fin 1024) :
    qblk m c t (ix3 (0 : Fin 1) p d) = m ((c : Thread nD τ).loc main_arg0) (ix3 (batchOf t) (rowOf t p) d) := by
  obtain ⟨⟨e0, e1, e2⟩, -⟩ := idx_facts t
  show iblk m c 0 t (ix3 (0 : Fin 1) p d) = _
  unfold iblk
  rw [View.read_apply]
  show V m c main_arg0 _ = _
  unfold V
  congr 1
  funext a; apply Fin.ext
  match a with
  | ⟨0, _⟩ => show win0_0.index t (0 : Fin 3) * 1 + 1 * 0 = t.val / 8; omega
  | ⟨1, _⟩ => show win0_0.index t (1 : Fin 3) * 256 + 1 * p.val = 256 * (t.val % 8) + p.val; omega
  | ⟨2, _⟩ => show win0_0.index t (2 : Fin 3) * 1024 + 1 * d.val = d.val; omega

theorem kblk_apply (c : Dev nD) (t : Fin cfg0.N) (p : Fin 2048) (d : Fin 1024) :
    kblk m c t (ix3 (0 : Fin 1) p d) = m ((c : Thread nD τ).loc main_arg1) (ix3 (batchOf t) p d) := by
  obtain ⟨-, ⟨e0, e1, e2⟩, -⟩ := idx_facts t
  show iblk m c 1 t (ix3 (0 : Fin 1) p d) = _
  unfold iblk
  rw [View.read_apply]
  show V m c main_arg1 _ = _
  unfold V
  congr 1
  funext a; apply Fin.ext
  match a with
  | ⟨0, _⟩ => show win0_1.index t (0 : Fin 3) * 1 + 1 * 0 = t.val / 8; omega
  | ⟨1, _⟩ => show win0_1.index t (1 : Fin 3) * 2048 + 1 * p.val = p.val; omega
  | ⟨2, _⟩ => show win0_1.index t (2 : Fin 3) * 1024 + 1 * d.val = d.val; omega

theorem vblk_apply (c : Dev nD) (t : Fin cfg0.N) (p : Fin 2048) (d : Fin 1024) :
    vblk m c t (ix3 (0 : Fin 1) p d) = m ((c : Thread nD τ).loc main_arg2) (ix3 (batchOf t) p d) := by
  obtain ⟨-, -, ⟨e0, e1, e2⟩, -⟩ := idx_facts t
  show iblk m c 2 t (ix3 (0 : Fin 1) p d) = _
  unfold iblk
  rw [View.read_apply]
  show V m c main_arg2 _ = _
  unfold V
  congr 1
  funext a; apply Fin.ext
  match a with
  | ⟨0, _⟩ => show win0_2.index t (0 : Fin 3) * 1 + 1 * 0 = t.val / 8; omega
  | ⟨1, _⟩ => show win0_2.index t (1 : Fin 3) * 2048 + 1 * p.val = p.val; omega
  | ⟨2, _⟩ => show win0_2.index t (2 : Fin 3) * 1024 + 1 * d.val = d.val; omega

theorem mblk_apply (c : Dev nD) (t : Fin cfg0.N) (p : Fin 256) (d : Fin 2048) :
    mblk m c t (ix3 (0 : Fin 1) p d) = m ((c : Thread nD τ).loc main_arg3) (ix3 (batchOf t) (rowOf t p) d) := by
  obtain ⟨-, -, -, ⟨e0, e1, e2⟩, -⟩ := idx_facts t
  show iblk m c 3 t (ix3 (0 : Fin 1) p d) = _
  unfold iblk
  rw [View.read_apply]
  show V m c main_arg3 _ = _
  unfold V
  congr 1
  funext a; apply Fin.ext
  match a with
  | ⟨0, _⟩ => show win0_3.index t (0 : Fin 3) * 1 + 1 * 0 = t.val / 8; omega
  | ⟨1, _⟩ => show win0_3.index t (1 : Fin 3) * 256 + 1 * p.val = 256 * (t.val % 8) + p.val; omega
  | ⟨2, _⟩ => show win0_3.index t (2 : Fin 3) * 2048 + 1 * d.val = d.val; omega

theorem wqblk_apply (c : Dev nD) (t : Fin cfg0.N) (n : Fin 64) (d : Fin 1024) :
    wqblk m c t (ix2 n d) = m ((c : Thread nD τ).loc main_arg4) (ix2 n d) := by
  obtain ⟨-, -, -, -, ⟨e0, e1⟩, -⟩ := idx_facts t
  show iblk m c 4 t (ix2 n d) = _
  unfold iblk
  rw [View.read_apply]
  show V m c main_arg4 _ = _
  unfold V
  congr 1
  funext a; apply Fin.ext
  match a with
  | ⟨0, _⟩ => show win0_4.index t (0 : Fin 2) * 64 + 1 * n.val = n.val; omega
  | ⟨1, _⟩ => show win0_4.index t (1 : Fin 2) * 1024 + 1 * d.val = d.val; omega

theorem bqblk_apply (c : Dev nD) (t : Fin cfg0.N) (n : Fin 64) :
    bqblk m c t (ix1 n) = m ((c : Thread nD τ).loc main_arg5) (ix1 n) := by
  obtain ⟨-, -, -, -, -, e0, -⟩ := idx_facts t
  show iblk m c 5 t (ix1 n) = _
  unfold iblk
  rw [View.read_apply]
  show V m c main_arg5 _ = _
  unfold V
  congr 1
  funext a; apply Fin.ext
  match a with
  | ⟨0, _⟩ => show win0_5.index t (0 : Fin 1) * 64 + 1 * n.val = n.val; omega

theorem wkblk_apply (c : Dev nD) (t : Fin cfg0.N) (n : Fin 64) (d : Fin 1024) :
    wkblk m c t (ix2 n d) = m ((c : Thread nD τ).loc main_arg6) (ix2 n d) := by
  obtain ⟨-, -, -, -, -, -, ⟨e0, e1⟩, -⟩ := idx_facts t
  show iblk m c 6 t (ix2 n d) = _
  unfold iblk
  rw [View.read_apply]
  show V m c main_arg6 _ = _
  unfold V
  congr 1
  funext a; apply Fin.ext
  match a with
  | ⟨0, _⟩ => show win0_6.index t (0 : Fin 2) * 64 + 1 * n.val = n.val; omega
  | ⟨1, _⟩ => show win0_6.index t (1 : Fin 2) * 1024 + 1 * d.val = d.val; omega

theorem bkblk_apply (c : Dev nD) (t : Fin cfg0.N) (n : Fin 64) :
    bkblk m c t (ix1 n) = m ((c : Thread nD τ).loc main_arg7) (ix1 n) := by
  obtain ⟨-, -, -, -, -, -, -, e0, -⟩ := idx_facts t
  show iblk m c 7 t (ix1 n) = _
  unfold iblk
  rw [View.read_apply]
  show V m c main_arg7 _ = _
  unfold V
  congr 1
  funext a; apply Fin.ext
  match a with
  | ⟨0, _⟩ => show win0_7.index t (0 : Fin 1) * 64 + 1 * n.val = n.val; omega

theorem wvblk_apply (c : Dev nD) (t : Fin cfg0.N) (n : Fin 64) (d : Fin 1024) :
    wvblk m c t (ix2 n d) = m ((c : Thread nD τ).loc main_arg8) (ix2 n d) := by
  obtain ⟨-, -, -, -, -, -, -, -, ⟨e0, e1⟩, -⟩ := idx_facts t
  show iblk m c 8 t (ix2 n d) = _
  unfold iblk
  rw [View.read_apply]
  show V m c main_arg8 _ = _
  unfold V
  congr 1
  funext a; apply Fin.ext
  match a with
  | ⟨0, _⟩ => show win0_8.index t (0 : Fin 2) * 64 + 1 * n.val = n.val; omega
  | ⟨1, _⟩ => show win0_8.index t (1 : Fin 2) * 1024 + 1 * d.val = d.val; omega

theorem bvblk_apply (c : Dev nD) (t : Fin cfg0.N) (n : Fin 64) :
    bvblk m c t (ix1 n) = m ((c : Thread nD τ).loc main_arg9) (ix1 n) := by
  obtain ⟨-, -, -, -, -, -, -, -, -, e0, -⟩ := idx_facts t
  show iblk m c 9 t (ix1 n) = _
  unfold iblk
  rw [View.read_apply]
  show V m c main_arg9 _ = _
  unfold V
  congr 1
  funext a; apply Fin.ext
  match a with
  | ⟨0, _⟩ => show win0_9.index t (0 : Fin 1) * 64 + 1 * n.val = n.val; omega

/-! ## A staged block's projection is the array's -/

/-- Row p of the staged query tile, projected, is row rowOf t p of batch batchOf t of q, projected. -/
theorem projRow_q (c : Dev nD) (t : Fin cfg0.N) (p : Fin 256) (n : Fin 64) :
    projRow (qblk m c t) (wqblk m c t) (bqblk m c t) p n
      = proj (m ((c : Thread nD τ).loc main_arg0)) (m ((c : Thread nD τ).loc main_arg4)) (m ((c : Thread nD τ).loc main_arg5)) (batchOf t) (rowOf t p) n := by
  unfold projRow proj
  rw [bqblk_apply]
  exact congrArg (· + _) (Finset.sum_congr rfl fun d _ => by rw [qblk_apply, wqblk_apply])

/-- Row s of the staged key block, projected, is row s of batch batchOf t of k, projected. -/
theorem projRow_k (c : Dev nD) (t : Fin cfg0.N) (s : Fin 2048) (n : Fin 64) :
    projRow (kblk m c t) (wkblk m c t) (bkblk m c t) s n
      = proj (m ((c : Thread nD τ).loc main_arg1)) (m ((c : Thread nD τ).loc main_arg6)) (m ((c : Thread nD τ).loc main_arg7)) (batchOf t) s n := by
  unfold projRow proj
  rw [bkblk_apply]
  exact congrArg (· + _) (Finset.sum_congr rfl fun d _ => by rw [kblk_apply, wkblk_apply])

/-- Row s of the staged value block, projected, is row s of batch batchOf t of v, projected. -/
theorem projRow_v (c : Dev nD) (t : Fin cfg0.N) (s : Fin 2048) (n : Fin 64) :
    projRow (vblk m c t) (wvblk m c t) (bvblk m c t) s n
      = proj (m ((c : Thread nD τ).loc main_arg2)) (m ((c : Thread nD τ).loc main_arg8)) (m ((c : Thread nD τ).loc main_arg9)) (batchOf t) s n := by
  unfold projRow proj
  rw [bvblk_apply]
  exact congrArg (· + _) (Finset.sum_congr rfl fun d _ => by rw [vblk_apply, wvblk_apply])

end Cert.KernelIdeal.Blocks

end
-- ==== Proof.Payload.lean ====
/-
  The kernel body's three small stored values — the output tile's recast and the K and V projections — read at one index
  over the extended reals.
-/
import proofs.«148479_j1314259993021_1_alg».proof.Proof.Gen.KernelIdeal.Skeleton
import proofs.«148479_j1314259993021_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Attn

/-! ## The operand indices of the [2048,1024] × [64,1024] product contracting both second axes

At output index i = (t, n) and contraction coordinate q the left operand is read at (t, q) and the right one at (n, q). -/

/-- The left operand's row is the output's row. -/
private theorem lhs_proj_0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl

/-- The left operand's column is the contraction coordinate. -/
private theorem lhs_proj_1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q

/-- The right operand's row is the output's column. -/
private theorem rhs_proj_0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl

/-- The right operand's column is the contraction coordinate. -/
private theorem rhs_proj_1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q

/-- The product into a zero accumulator, read at (t, n), is the sum over the 1024 shared columns of row t of the left
    operand against row n of the right one. -/
private theorem matmul_proj_apply (a : FVec Ideal S2048x1024 .f32) (w : FVec Ideal S64x1024 .f32) (t : Fin 2048) (n : Fin 64) :
    matmul (F := Ideal) (φ₁ := .f32) (φ₂ := .f32) dot_S2048x1024_S64x1024_S2048x64_1_1_0_0_n_n none a w (constant S2048x64 .f32 0x00000000#32) (ix2 t n)
      = ∑ d : Fin 1024, a (ix2 t d) * w (ix2 n d) := by
  refine (Ideal.matmul_constant_zero_apply dot_S2048x1024_S64x1024_S2048x64_1_1_0_0_n_n none a w (ix2 t n)).trans ?_
  rw [← Equiv.sum_comp (ValueIdx.contrEquiv1 dot_S2048x1024_S64x1024_S2048x64_1_1_0_0_n_n 1024 rfl rfl).symm]
  refine Finset.sum_congr rfl fun k _ => ?_
  have hk := ValueIdx.contrEquiv1_symm_val dot_S2048x1024_S64x1024_S2048x64_1_1_0_0_n_n 1024 rfl rfl k
  have el : dot_S2048x1024_S64x1024_S2048x64_1_1_0_0_n_n.lhsIdx (ix2 t n) ((ValueIdx.contrEquiv1 dot_S2048x1024_S64x1024_S2048x64_1_1_0_0_n_n 1024 rfl rfl).symm k) = ix2 t k := funext fun c => Fin.ext (by
    match c with
    | ⟨0, _⟩ => exact lhs_proj_0 _ _
    | ⟨1, _⟩ => exact (lhs_proj_1 _ _).trans hk)
  have er : dot_S2048x1024_S64x1024_S2048x64_1_1_0_0_n_n.rhsIdx (ix2 t n) ((ValueIdx.contrEquiv1 dot_S2048x1024_S64x1024_S2048x64_1_1_0_0_n_n 1024 rfl rfl).symm k) = ix2 n k := funext fun c => Fin.ext (by
    match c with
    | ⟨0, _⟩ => exact rhs_proj_0 _ _
    | ⟨1, _⟩ => exact (rhs_proj_1 _ _).trans hk)
  rw [el, er]

/-- One projection: the staged block recast to a matrix, multiplied against the weight's rows, plus the bias laid along
    every row, read at (t, n). -/
private theorem proj_apply (x : Vec Ideal S1x2048x1024 .f32) (w : Vec Ideal S64x1024 .f32) (b : Vec Ideal S64 .f32)
    (t : Fin 2048) (n : Fin 64) :
    addf (F := Ideal) (φ := .f32)
        (matmul (F := Ideal) (φ₁ := .f32) (φ₂ := .f32) dot_S2048x1024_S64x1024_S2048x64_1_1_0_0_n_n none
          (shapeCast S2048x1024 x shapeCasts_S1x2048x1024_S2048x1024) w (constant S2048x64 .f32 0x00000000#32))
        (broadcastTo S2048x64 (shapeCast S1x64 b shapeCasts_S64_S1x64) broadcasts_S1x64_S2048x64) (ix2 t n)
      = projRow x w b t n := by
  refine (addf_apply _ _ _).trans ?_
  unfold projRow
  congr 1
  · refine (matmul_proj_apply _ w t n).trans ?_
    refine Finset.sum_congr rfl fun d _ => ?_
    exact congrArg (· * w (ix2 n d)) (shapeCast_1ab_ab_apply x shapeCasts_S1x2048x1024_S2048x1024 t d)
  · refine (broadcastTo_1b_ab_apply _ broadcasts_S1x64_S2048x64 t n).trans ?_
    exact shapeCast_a_1a_apply b shapeCasts_S64_S1x64 0 n

/-- The stored output tile is the attention tile with a leading unit axis. -/
theorem pay1_apply (v30 : FVec Ideal S256x64 .f32) (p : Fin 256) (n : Fin 64) :
    k0_pay1 (F := Ideal) v30 (ix3 (0 : Fin 1) p n) = v30 (ix2 p n) := by
  unfold k0_pay1
  exact shapeCast_ab_1ab_apply v30 shapeCasts_S256x64_S1x256x64 0 p n

/-- The K projection of a whole batch row block, at (t, n). -/
theorem pay2_apply (x1 : Vec Ideal S1x2048x1024 .f32) (x6 : Vec Ideal S64x1024 .f32) (x7 : Vec Ideal S64 .f32)
    (t : Fin 2048) (n : Fin 64) :
    k0_pay2 (F := Ideal) x1 x6 x7 (ix2 t n) = projRow x1 x6 x7 t n := by
  unfold k0_pay2
  rw [shapeCast_self]
  exact proj_apply x1 x6 x7 t n

/-- The V projection likewise. -/
theorem pay3_apply (x2 : Vec Ideal S1x2048x1024 .f32) (x8 : Vec Ideal S64x1024 .f32) (x9 : Vec Ideal S64 .f32)
    (t : Fin 2048) (n : Fin 64) :
    k0_pay3 (F := Ideal) x2 x8 x9 (ix2 t n) = projRow x2 x8 x9 t n := by
  unfold k0_pay3
  rw [shapeCast_self]
  exact proj_apply x2 x8 x9 t n

end Cert.KernelIdeal.Payload

end
-- ==== Proof.PayloadAttn.lean ====
/-
  The kernel body's attention tile, read at one index over the extended reals: the softmax of a query row's scores
  against a column of the projected values.
-/
import proofs.«148479_j1314259993021_1_alg».proof.Proof.Gen.KernelIdeal.Skeleton
import proofs.«148479_j1314259993021_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAttn

open Cert.KernelIdeal Cert.KernelIdeal.Gen Idealize.ShloMosaic Idealize.ShloMosaic.ValueIdx Cert.Attn

/-! ## The three matrix products as plain sums

Each product's dimension numbers contract one axis of each operand; at an output index (r, c) and a contraction
coordinate k the operand indices are read off axis by axis, and the sum over the contraction index is re-indexed to
the sum over that one coordinate. -/

local notation "D₁" => dot_S256x1024_S64x1024_S256x64_1_1_0_0_n_n
local notation "D₂" => dot_S256x64_S2048x64_S256x2048_1_1_0_0_n_n
local notation "D₃" => dot_S256x2048_S2048x64_S256x64_1_0_0_1_n_n

/-- First product, left operand: axis 0 is the output row. -/
private theorem lhs₁_0 (i : S256x64.Idx) (q : (DotDims.contr D₁).Idx) :
    (DotDims.lhsIdx D₁ i q 0).val = (i 0).val := by
  unfold DotDims.lhsIdx
  rw [dif_neg (show ¬(0 : Fin S256x1024.rank) ∈ DotDims.lhsBatch D₁ by decide),
    dif_pos (show (0 : Fin S256x1024.rank) ∈ DotDims.lhsNonContracting D₁ by decide)]
  rfl
/-- First product, left operand: axis 1 is contracted. -/
private theorem lhs₁_1 (i : S256x64.Idx) (q : (DotDims.contr D₁).Idx) :
    (DotDims.lhsIdx D₁ i q 1).val = (q ⟨0, by decide⟩).val :=
  DotDims.lhsIdx_val_of_single D₁ rfl i q
/-- First product, right operand: axis 0 is the output column. -/
private theorem rhs₁_0 (i : S256x64.Idx) (q : (DotDims.contr D₁).Idx) :
    (DotDims.rhsIdx D₁ i q 0).val = (i 1).val := by
  unfold DotDims.rhsIdx
  rw [dif_neg (show ¬(0 : Fin S64x1024.rank) ∈ DotDims.rhsBatch D₁ by decide),
    dif_pos (show (0 : Fin S64x1024.rank) ∈ DotDims.rhsNonContracting D₁ by decide)]
  rfl
/-- First product, right operand: axis 1 is contracted. -/
private theorem rhs₁_1 (i : S256x64.Idx) (q : (DotDims.contr D₁).Idx) :
    (DotDims.rhsIdx D₁ i q 1).val = (q ⟨0, by decide⟩).val :=
  DotDims.rhsIdx_val_of_single D₁ rfl i q

/-- The first product at (p, n): row p of the left operand against row n of the right one. -/
private theorem mm₁_apply (a : FVec Ideal S256x1024 .f32) (b : FVec Ideal S64x1024 .f32) (p : Fin 256) (n : Fin 64) :
    matmul (F := Ideal) D₁ none a b (constant (F := Ideal) S256x64 .f32 0x00000000#32) (ix2 p n)
      = ∑ d : Fin 1024, a (ix2 p d) * b (ix2 n d) := by
  refine (Ideal.matmul_constant_zero_apply D₁ none a b (ix2 p n)).trans ?_
  rw [← Equiv.sum_comp (ValueIdx.contrEquiv1 D₁ 1024 rfl rfl).symm]
  refine Finset.sum_congr rfl fun k _ => ?_
  have hk := ValueIdx.contrEquiv1_symm_val D₁ 1024 rfl rfl k
  have el : DotDims.lhsIdx D₁ (ix2 p n) ((ValueIdx.contrEquiv1 D₁ 1024 rfl rfl).symm k) = ix2 p k :=
    funext fun a => Fin.ext (by
      match a with
      | ⟨0, _⟩ => exact lhs₁_0 _ _
      | ⟨1, _⟩ => exact (lhs₁_1 _ _).trans hk)
  have er : DotDims.rhsIdx D₁ (ix2 p n) ((ValueIdx.contrEquiv1 D₁ 1024 rfl rfl).symm k) = ix2 n k :=
    funext fun a => Fin.ext (by
      match a with
      | ⟨0, _⟩ => exact rhs₁_0 _ _
      | ⟨1, _⟩ => exact (rhs₁_1 _ _).trans hk)
  rw [el, er]

/-- Second product, left operand: axis 0 is the output row. -/
private theorem lhs₂_0 (i : S256x2048.Idx) (q : (DotDims.contr D₂).Idx) :
    (DotDims.lhsIdx D₂ i q 0).val = (i 0).val := by
  unfold DotDims.lhsIdx
  rw [dif_neg (show ¬(0 : Fin S256x64.rank) ∈ DotDims.lhsBatch D₂ by decide),
    dif_pos (show (0 : Fin S256x64.rank) ∈ DotDims.lhsNonContracting D₂ by decide)]
  rfl
/-- Second product, left operand: axis 1 is contracted. -/
private theorem lhs₂_1 (i : S256x2048.Idx) (q : (DotDims.contr D₂).Idx) :
    (DotDims.lhsIdx D₂ i q 1).val = (q ⟨0, by decide⟩).val :=
  DotDims.lhsIdx_val_of_single D₂ rfl i q
/-- Second product, right operand: axis 0 is the output column. -/
private theorem rhs₂_0 (i : S256x2048.Idx) (q : (DotDims.contr D₂).Idx) :
    (DotDims.rhsIdx D₂ i q 0).val = (i 1).val := by
  unfold DotDims.rhsIdx
  rw [dif_neg (show ¬(0 : Fin S2048x64.rank) ∈ DotDims.rhsBatch D₂ by decide),
    dif_pos (show (0 : Fin S2048x64.rank) ∈ DotDims.rhsNonContracting D₂ by decide)]
  rfl
/-- Second product, right operand: axis 1 is contracted. -/
private theorem rhs₂_1 (i : S256x2048.Idx) (q : (DotDims.contr D₂).Idx) :
    (DotDims.rhsIdx D₂ i q 1).val = (q ⟨0, by decide⟩).val :=
  DotDims.rhsIdx_val_of_single D₂ rfl i q

/-- The second product at (p, t): row p of the left operand against row t of the right one. -/
private theorem mm₂_apply (a : FVec Ideal S256x64 .f32) (b : FVec Ideal S2048x64 .f32) (p : Fin 256) (t : Fin 2048) :
    matmul (F := Ideal) D₂ none a b (constant (F := Ideal) S256x2048 .f32 0x00000000#32) (ix2 p t)
      = ∑ n' : Fin 64, a (ix2 p n') * b (ix2 t n') := by
  refine (Ideal.matmul_constant_zero_apply D₂ none a b (ix2 p t)).trans ?_
  rw [← Equiv.sum_comp (ValueIdx.contrEquiv1 D₂ 64 rfl rfl).symm]
  refine Finset.sum_congr rfl fun k _ => ?_
  have hk := ValueIdx.contrEquiv1_symm_val D₂ 64 rfl rfl k
  have el : DotDims.lhsIdx D₂ (ix2 p t) ((ValueIdx.contrEquiv1 D₂ 64 rfl rfl).symm k) = ix2 p k :=
    funext fun a => Fin.ext (by
      match a with
      | ⟨0, _⟩ => exact lhs₂_0 _ _
      | ⟨1, _⟩ => exact (lhs₂_1 _ _).trans hk)
  have er : DotDims.rhsIdx D₂ (ix2 p t) ((ValueIdx.contrEquiv1 D₂ 64 rfl rfl).symm k) = ix2 t k :=
    funext fun a => Fin.ext (by
      match a with
      | ⟨0, _⟩ => exact rhs₂_0 _ _
      | ⟨1, _⟩ => exact (rhs₂_1 _ _).trans hk)
  rw [el, er]

/-- Third product, left operand: axis 0 is the output row. -/
private theorem lhs₃_0 (i : S256x64.Idx) (q : (DotDims.contr D₃).Idx) :
    (DotDims.lhsIdx D₃ i q 0).val = (i 0).val := by
  unfold DotDims.lhsIdx
  rw [dif_neg (show ¬(0 : Fin S256x2048.rank) ∈ DotDims.lhsBatch D₃ by decide),
    dif_pos (show (0 : Fin S256x2048.rank) ∈ DotDims.lhsNonContracting D₃ by decide)]
  rfl
/-- Third product, left operand: axis 1 is contracted. -/
private theorem lhs₃_1 (i : S256x64.Idx) (q : (DotDims.contr D₃).Idx) :
    (DotDims.lhsIdx D₃ i q 1).val = (q ⟨0, by decide⟩).val :=
  DotDims.lhsIdx_val_of_single D₃ rfl i q
/-- Third product, right operand: axis 0 is contracted. -/
private theorem rhs₃_0 (i : S256x64.Idx) (q : (DotDims.contr D₃).Idx) :
    (DotDims.rhsIdx D₃ i q 0).val = (q ⟨0, by decide⟩).val :=
  DotDims.rhsIdx_val_of_single D₃ rfl i q
/-- Third product, right operand: axis 1 is the output column. -/
private theorem rhs₃_1 (i : S256x64.Idx) (q : (DotDims.contr D₃).Idx) :
    (DotDims.rhsIdx D₃ i q 1).val = (i 1).val := by
  unfold DotDims.rhsIdx
  rw [dif_neg (show ¬(1 : Fin S2048x64.rank) ∈ DotDims.rhsBatch D₃ by decide),
    dif_pos (show (1 : Fin S2048x64.rank) ∈ DotDims.rhsNonContracting D₃ by decide)]
  rfl

/-- The third product at (p, n): row p of the left operand against column n of the right one. -/
private theorem mm₃_apply (a : FVec Ideal S256x2048 .f32) (b : FVec Ideal S2048x64 .f32) (p : Fin 256) (n : Fin 64) :
    matmul (F := Ideal) D₃ none a b (constant (F := Ideal) S256x64 .f32 0x00000000#32) (ix2 p n)
      = ∑ t : Fin 2048, a (ix2 p t) * b (ix2 t n) := by
  refine (Ideal.matmul_constant_zero_apply D₃ none a b (ix2 p n)).trans ?_
  rw [← Equiv.sum_comp (ValueIdx.contrEquiv1 D₃ 2048 rfl rfl).symm]
  refine Finset.sum_congr rfl fun k _ => ?_
  have hk := ValueIdx.contrEquiv1_symm_val D₃ 2048 rfl rfl k
  have el : DotDims.lhsIdx D₃ (ix2 p n) ((ValueIdx.contrEquiv1 D₃ 2048 rfl rfl).symm k) = ix2 p k :=
    funext fun a => Fin.ext (by
      match a with
      | ⟨0, _⟩ => exact lhs₃_0 _ _
      | ⟨1, _⟩ => exact (lhs₃_1 _ _).trans hk)
  have er : DotDims.rhsIdx D₃ (ix2 p n) ((ValueIdx.contrEquiv1 D₃ 2048 rfl rfl).symm k) = ix2 k n :=
    funext fun a => Fin.ext (by
      match a with
      | ⟨0, _⟩ => exact (rhs₃_0 _ _).trans hk
      | ⟨1, _⟩ => exact rhs₃_1 _ _)
  rw [el, er]

/-! ## The keepdims column forms, and the reductions along a row

A vector of one entry per row, cast to a one-column matrix and broadcast along the rows, reads at (p, t) the vector's
entry p. The reduction of a [256, 2048] matrix along axis 1 reads, at p, row p: the source index over p with the
coordinate u inserted on axis 1 is (p, u). -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector over the rows, as a column broadcast along each row: at (p, t) it is the vector's entry p. -/
private theorem col_apply {α : Type} (v : S256.Idx → α) (h : S256.ShapeCasts S256x1) (h' : S256x1.Broadcasts S256x2048)
    (p : Fin 256) (t : Fin 2048) :
    broadcastTo S256x2048 (shapeCast S256x1 v h) h' (ix2 p t) = v (ix1 p) :=
  (broadcastTo_a1_ab_apply _ h' p t).trans (shapeCast_a_a1_apply v h p 0)

/-- Over row p, the source index with coordinate u on the reduced axis is (p, u). -/
private theorem lift_row (h : S256x2048.Reduces [1] S256) (p : Fin 256) (u : Fin 2048) :
    h.lift (ix1 p) u = ix2 p u :=
  funext fun c => Fin.ext (by
    match c with
    | ⟨0, _⟩ => rfl
    | ⟨1, _⟩ => rfl)

/-- The maximum along axis 1 from the word of −∞, at p: the row maximum of row p. -/
private theorem rowMax_apply (S : FVec Ideal S256x2048 .f32) (h : S256x2048.Reduces [1] S256) (hφ : FKind.Formats .f32)
    (hacc : (0xFF800000#32 : BitVec FTy.f32.bits) = FKind.maximumf.neutral .f32 hφ) (p : Fin 256) :
    multiReduction (F := Ideal) .maximumf [1] S256 S 0xFF800000#32 h hφ hacc (ix1 p) = rowMax (fun u => S (ix2 p u)) := by
  refine (Ideal.multiReduction_maximumf_single S _ h hφ hacc (ix1 p)).trans ?_
  have e : (S ∘ h.lift (ix1 p)) = fun u : Fin 2048 => S (ix2 p u) := funext fun u => congrArg S (lift_row h p u)
  rw [e]
  rfl

/-- The sum along axis 1, at p: the sum of row p. -/
private theorem rowSum_apply (E : FVec Ideal S256x2048 .f32) (h : S256x2048.Reduces [1] S256) (hφ : FKind.Formats .f32)
    (hacc : (0x00000000#32 : BitVec FTy.f32.bits) = FKind.add.neutral .f32 hφ) (p : Fin 256) :
    multiReduction (F := Ideal) .add [1] S256 E 0x00000000#32 h hφ hacc (ix1 p) = ∑ u : Fin 2048, E (ix2 p u) := by
  refine (Ideal.multiReduction_add_single E _ h hφ hacc (ix1 p)).trans ?_
  exact Finset.sum_congr rfl fun u _ => congrArg E (lift_row h p u)

/-! ## The stages of the tile, each at one index -/

/-- The projected query block at (p, n'): row p of the staged block against row n' of the weight, plus bias n'. -/
private theorem qp_apply (v3 : FVec Ideal S1x256x1024 .f32) (v5 : FVec Ideal S64x1024 .f32) (v7 : FVec Ideal S64 .f32)
    (h1 : S1x256x1024.ShapeCasts S256x1024) (h2 : S64.ShapeCasts S1x64) (h3 : S1x64.Broadcasts S256x64)
    (p : Fin 256) (n' : Fin 64) :
    addf (F := Ideal)
        (matmul (F := Ideal) (φ₁ := .f32) (φ₂ := .f32) D₁ none (shapeCast S256x1024 v3 h1) v5 (constant (F := Ideal) S256x64 .f32 0x00000000#32))
        (broadcastTo S256x64 (shapeCast S1x64 v7 h2) h3) (ix2 p n')
      = projRow v3 v5 v7 p n' := by
  refine (addf_apply _ _ _).trans ?_
  unfold projRow
  refine congrArg₂ (· + ·) ?_ ?_
  · refine (mm₁_apply _ _ p n').trans ?_
    exact Finset.sum_congr rfl fun d _ => congrArg (· * v5 (ix2 n' d)) (shapeCast_1ab_ab_apply v3 h1 p d)
  · exact (broadcastTo_1b_ab_apply _ h3 p n').trans (shapeCast_a_1a_apply v7 h2 0 n')

/-- The score block at (p, t) over any projected query block: the scaled product of row p with key row t, plus the
    mask's penalty. -/
private theorem score_apply (qp : FVec Ideal S256x64 .f32) (v11 : FVec Ideal S2048x64 .f32) (v15 : FVec Ideal S1x256x2048 .f32)
    (h : S1x256x2048.ShapeCasts S256x2048) (p : Fin 256) (t : Fin 2048) :
    addf (F := Ideal)
        (mulf (F := Ideal) (matmul (F := Ideal) (φ₁ := .f32) (φ₂ := .f32) D₂ none qp v11 (constant (F := Ideal) S256x2048 .f32 0x00000000#32))
          (broadcast S256x2048 (Scalar.ofBits (F := Ideal) .f32 0x3E000000#32)))
        (mulf (F := Ideal) (shapeCast S256x2048 v15 h) (broadcast S256x2048 (Scalar.ofBits (F := Ideal) .f32 0xCE6E6B28#32)))
        (ix2 p t)
      = (∑ n' : Fin 64, qp (ix2 p n') * v11 (ix2 t n')) * cScale + v15 (ix3 (0 : Fin 1) p t) * cPen := by
  refine (addf_apply _ _ _).trans ?_
  refine congrArg₂ (· + ·) ?_ ?_
  · refine (mulf_apply _ _ _).trans ?_
    exact congrArg (· * cScale) (mm₂_apply qp v11 p t)
  · refine (mulf_apply _ _ _).trans ?_
    exact congrArg (· * cPen) (shapeCast_1ab_ab_apply v15 h p t)

/-- Row p of the score block, over the staged arrays: the specification's score row. -/
private theorem score_row (v3 : FVec Ideal S1x256x1024 .f32) (v5 : FVec Ideal S64x1024 .f32) (v7 : FVec Ideal S64 .f32)
    (v11 : FVec Ideal S2048x64 .f32) (v15 : FVec Ideal S1x256x2048 .f32)
    (h1 : S1x256x1024.ShapeCasts S256x1024) (h2 : S64.ShapeCasts S1x64) (h3 : S1x64.Broadcasts S256x64)
    (h4 : S1x256x2048.ShapeCasts S256x2048) (p : Fin 256) :
    (fun u : Fin 2048 =>
      addf (F := Ideal)
        (mulf (F := Ideal)
          (matmul (F := Ideal) (φ₁ := .f32) (φ₂ := .f32) D₂ none
            (addf (F := Ideal)
              (matmul (F := Ideal) (φ₁ := .f32) (φ₂ := .f32) D₁ none (shapeCast S256x1024 v3 h1) v5 (constant (F := Ideal) S256x64 .f32 0x00000000#32))
              (broadcastTo S256x64 (shapeCast S1x64 v7 h2) h3))
            v11 (constant (F := Ideal) S256x2048 .f32 0x00000000#32))
          (broadcast S256x2048 (Scalar.ofBits (F := Ideal) .f32 0x3E000000#32)))
        (mulf (F := Ideal) (shapeCast S256x2048 v15 h4) (broadcast S256x2048 (Scalar.ofBits (F := Ideal) .f32 0xCE6E6B28#32)))
        (ix2 p u))
      = fun t => (∑ n' : Fin 64, projRow v3 v5 v7 p n' * v11 (ix2 t n')) * cScale + v15 (ix3 (0 : Fin 1) p t) * cPen := by
  funext t
  refine (score_apply _ v11 v15 h4 p t).trans ?_
  refine congrArg (fun s => s * cScale + v15 (ix3 (0 : Fin 1) p t) * cPen) ?_
  exact Finset.sum_congr rfl fun n' _ => congrArg (· * v11 (ix2 t n')) (qp_apply v3 v5 v7 h1 h2 h3 p n')

/-- The unnormalised weights over any score block, at (p, t): the exponential of row p's score at t less the row's maximum. -/
private theorem exp_apply (S : FVec Ideal S256x2048 .f32) (hr : S256x2048.Reduces [1] S256) (hφ : FKind.Formats .f32)
    (hacc : (0xFF800000#32 : BitVec FTy.f32.bits) = FKind.maximumf.neutral .f32 hφ)
    (hc : S256.ShapeCasts S256x1) (hb : S256x1.Broadcasts S256x2048) (p : Fin 256) (t : Fin 2048) :
    exp (F := Ideal) (subf (F := Ideal) S
        (broadcastTo S256x2048 (shapeCast S256x1 (multiReduction (F := Ideal) .maximumf [1] S256 S 0xFF800000#32 hr hφ hacc) hc) hb))
        (ix2 p t)
      = expShift (fun u => S (ix2 p u)) t := by
  have e : broadcastTo S256x2048 (shapeCast S256x1 (multiReduction (F := Ideal) .maximumf [1] S256 S 0xFF800000#32 hr hφ hacc) hc) hb (ix2 p t)
      = rowMax (fun u => S (ix2 p u)) :=
    (col_apply _ hc hb p t).trans (rowMax_apply S hr hφ hacc p)
  unfold expShift
  exact congrArg (fun m => Ideal.exp (S (ix2 p t) - m)) e

/-- The normalised weights over any block of unnormalised ones, at (p, t): the entry over the sum of its row. -/
private theorem norm_apply (E : FVec Ideal S256x2048 .f32) (hr : S256x2048.Reduces [1] S256) (hφ : FKind.Formats .f32)
    (hacc : (0x00000000#32 : BitVec FTy.f32.bits) = FKind.add.neutral .f32 hφ)
    (hc : S256.ShapeCasts S256x1) (hb : S256x1.Broadcasts S256x2048) (p : Fin 256) (t : Fin 2048) :
    divf (F := Ideal) E
        (broadcastTo S256x2048 (shapeCast S256x1 (multiReduction (F := Ideal) .add [1] S256 E 0x00000000#32 hr hφ hacc) hc) hb)
        (ix2 p t)
      = Ideal.div (E (ix2 p t)) (∑ u : Fin 2048, E (ix2 p u)) :=
  (divf_apply _ _ _).trans
    (congrArg (Ideal.div (E (ix2 p t))) ((col_apply _ hc hb p t).trans (rowSum_apply E hr hφ hacc p)))

/-- The softmax weights over any score block, at (p, t). -/
private theorem weights_apply (S : FVec Ideal S256x2048 .f32) (hr : S256x2048.Reduces [1] S256) (hφ hφ' : FKind.Formats .f32)
    (hacc : (0xFF800000#32 : BitVec FTy.f32.bits) = FKind.maximumf.neutral .f32 hφ)
    (hacc' : (0x00000000#32 : BitVec FTy.f32.bits) = FKind.add.neutral .f32 hφ')
    (hc : S256.ShapeCasts S256x1) (hb : S256x1.Broadcasts S256x2048) (p : Fin 256) (t : Fin 2048) :
    divf (F := Ideal)
        (exp (F := Ideal) (subf (F := Ideal) S
          (broadcastTo S256x2048 (shapeCast S256x1 (multiReduction (F := Ideal) .maximumf [1] S256 S 0xFF800000#32 hr hφ hacc) hc) hb)))
        (broadcastTo S256x2048 (shapeCast S256x1
          (multiReduction (F := Ideal) .add [1] S256
            (exp (F := Ideal) (subf (F := Ideal) S
              (broadcastTo S256x2048 (shapeCast S256x1 (multiReduction (F := Ideal) .maximumf [1] S256 S 0xFF800000#32 hr hφ hacc) hc) hb)))
            0x00000000#32 hr hφ' hacc') hc) hb)
        (ix2 p t)
      = Ideal.div (expShift (fun u => S (ix2 p u)) t) (∑ u : Fin 2048, expShift (fun u => S (ix2 p u)) u) := by
  refine (norm_apply _ hr hφ' hacc' hc hb p t).trans ?_
  refine congrArg₂ Ideal.div (exp_apply S hr hφ hacc hc hb p t) ?_
  exact Finset.sum_congr rfl fun u _ => exp_apply S hr hφ hacc hc hb p u

/-- The attention tile at (p, n): the softmax of row p's scores against column n of the projected values. -/
theorem pay4_apply (x0 : Vec Ideal S1x256x1024 .f32) (x4 : Vec Ideal S64x1024 .f32) (x5 : Vec Ideal S64 .f32)
    (kp : Vec Ideal S2048x64 .f32) (x3 : Vec Ideal S1x256x2048 .f32) (vp : Vec Ideal S2048x64 .f32)
    (p : Fin 256) (n : Fin 64) :
    k0_pay4 (F := Ideal) x0 x4 x5 kp x3 vp (ix2 p n)
      = softmaxDot (fun t => (∑ n' : Fin 64, projRow x0 x4 x5 p n' * kp (ix2 t n')) * cScale + x3 (ix3 (0 : Fin 1) p t) * cPen)
          (fun t => vp (ix2 t n)) := by
  unfold k0_pay4
  refine (mm₃_apply _ vp p n).trans ?_
  unfold softmaxDot
  refine Finset.sum_congr rfl fun t _ => congrArg (· * vp (ix2 t n)) ?_
  refine (weights_apply _ _ _ _ _ _ _ _ p t).trans ?_
  exact congrArg (fun S : Fin 2048 → EReal => Ideal.div (expShift S t) (∑ u : Fin 2048, expShift S u))
    (score_row x0 x4 x5 kp x3 _ _ _ _ p)

end Cert.KernelIdeal.PayloadAttn

end
-- ==== Proof.KernelValue.lean ====
import proofs.«148479_j1314259993021_1_alg».proof.Proof.Gen.KernelIdeal.Value
import proofs.«148479_j1314259993021_1_alg».proof.Proof.Pieces
import proofs.«148479_j1314259993021_1_alg».proof.Proof.Blocks
import proofs.«148479_j1314259993021_1_alg».proof.Proof.Payload
import proofs.«148479_j1314259993021_1_alg».proof.Proof.PayloadAttn
import proofs.«148479_j1314259993021_1_alg».proof.Proof.Spec

noncomputable section

open scoped BigOperators

open Idealize.ShloMosaic Idealize.ShloMosaic.TcCoe Idealize.SL.Sem
open Idealize.ShloMosaic.Pipeline (Dat)

/-! The idealized kernel's result array is attention of its ten argument arrays.

    Per grid point: the two carried buffers hold, after every point of batch b, the key and value projections of
    batch b (stored at the batch's first tile and untouched afterwards: an induction over the points); so the tile
    each point leaves in the output's buffer is attention read at that tile's rows; each point writes its tile back
    to rows 256·(t % 8) … of batch t / 8, and the 32 tiles cover the result array. -/

namespace Cert.KernelIdeal.AttnValue

open Cert.KernelIdeal Cert.KernelIdeal.Gen Cert.KernelIdeal.Blocks Cert.KernelIdeal.Payload Cert.KernelIdeal.PayloadAttn
open Idealize.ShloMosaic.ValueIdx Cert.Attn

variable (m : (ℓ : Loc nD τ sig) → Buf (Elt Ideal) ℓ) (ρ : Dev nD → PrngReg)

/-! ## What a point leaves, by case -/

/-- At a batch's first tile the first carried buffer ends at the key projection of the staged key block. -/
theorem keys_first (c : Dev nD) (t : Fin cfg0.N) (h0 : t.val % 8 = 0) :
    (outsAt0 m c t.val t.isLt).2.1 = k0_pay2 (kblk m c t) (wkblk m c t) (bkblk m c t) := by
  rw [outsAt0_A m c t h0]
  dsimp only
  exact Pieces.keyProj_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- At a batch's first tile the second carried buffer ends at the value projection of the staged value block. -/
theorem vals_first (c : Dev nD) (t : Fin cfg0.N) (h0 : t.val % 8 = 0) :
    (outsAt0 m c t.val t.isLt).2.2 = k0_pay3 (vblk m c t) (wvblk m c t) (bvblk m c t) := by
  rw [outsAt0_A m c t h0]
  dsimp only
  exact Pieces.valProj_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- At a batch's first tile the output tile is attention against the projections just stored. -/
theorem tile_first (c : Dev nD) (t : Fin cfg0.N) (h0 : t.val % 8 = 0) :
    (outsAt0 m c t.val t.isLt).1 = k0_pay1 (k0_pay4 (qblk m c t) (wqblk m c t) (bqblk m c t)
      (k0_pay2 (kblk m c t) (wkblk m c t) (bkblk m c t)) (mblk m c t) (k0_pay3 (vblk m c t) (wvblk m c t) (bvblk m c t))) := by
  rw [outsAt0_A m c t h0]
  dsimp only
  exact Pieces.tile_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- At any other tile the carried buffers are as the tile before left them. -/
theorem keys_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  rw [outsAt0_B m c t h0]
  dsimp only
  rfl
theorem vals_later (c : Dev nD) (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  dsimp only
  rfl

/-- At any other tile the output tile is attention against what the carried buffers hold. -/
theorem tile_later (c : Dev nD) (t : Fin cfg0.N) (h0 : ¬t.val % 8 = 0) :
    (outsAt0 m c t.val t.isLt).1 = k0_pay1 (k0_pay4 (qblk m c t) (wqblk m c t) (bqblk m c t)
      (outsAt0 m c (t.val - 1) (Nat.lt_of_le_of_lt (Nat.sub_le _ _) t.isLt)).2.1 (mblk m c t) (outsAt0 m c (t.val - 1) (Nat.lt_of_le_of_lt (Nat.sub_le _ _) t.isLt)).2.2) := by
  rw [outsAt0_B m c t h0]
  dsimp only
  exact Pieces.tile_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2

/-! ## The carried projections, by induction over the points -/

/-- After point t the carried buffers hold the key and value projections of t's batch. -/
def Carried (c : Dev nD) (t : Fin cfg0.N) : Prop :=
  (∀ (s : Fin 2048) (n : Fin 64), (outsAt0 m c t.val t.isLt).2.1 (ix2 s n) = proj (m ((c : Thread nD τ).loc main_arg1)) (m ((c : Thread nD τ).loc main_arg6)) (m ((c : Thread nD τ).loc main_arg7)) (batchOf t) s n)
  ∧ (∀ (s : Fin 2048) (n : Fin 64), (outsAt0 m c t.val t.isLt).2.2 (ix2 s n) = proj (m ((c : Thread nD τ).loc main_arg2)) (m ((c : Thread nD τ).loc main_arg8)) (m ((c : Thread nD τ).loc main_arg9)) (batchOf t) s n)

theorem carried_first (c : Dev nD) (t : Fin cfg0.N) (h0 : t.val % 8 = 0) : Carried m c t :=
  ⟨fun s n => (congrFun (keys_first m c t h0) (ix2 s n)).trans ((pay2_apply _ _ _ s n).trans (projRow_k m c t s n)),
   fun s n => (congrFun (vals_first m c t h0) (ix2 s n)).trans ((pay3_apply _ _ _ s n).trans (projRow_v m c t s n))⟩

theorem carried (c : Dev nD) : ∀ (n : ℕ) (h : n < cfg0.N), Carried m c ⟨n, h⟩
  | 0, h => carried_first m c ⟨0, h⟩ (Nat.zero_mod 8)
  | n + 1, h => by
    by_cases h0 : (n + 1) % 8 = 0
    · exact carried_first m c ⟨n + 1, h⟩ h0
    · have ih := carried c n (Nat.lt_of_succ_lt h)
      have hb : batchOf ⟨n + 1, h⟩ = batchOf ⟨n, Nat.lt_of_succ_lt h⟩ := Fin.ext (by show (n + 1) / 8 = n / 8; omega)
      refine ⟨fun s k => ?_, fun s k => ?_⟩
      · rw [hb]; exact (congrFun (keys_later m c ⟨n + 1, h⟩ h0) (ix2 s k)).trans (ih.1 s k)
      · rw [hb]; exact (congrFun (vals_later m c ⟨n + 1, h⟩ h0) (ix2 s k)).trans (ih.2 s k)

/-! ## The tile a point leaves is attention at its rows -/

theorem tile_value (c : Dev nD) (t : Fin cfg0.N) (p : Fin 256) (n : Fin 64) :
    (outsAt0 m c t.val t.isLt).1 (ix3 (0 : Fin 1) p n) = attnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (batchOf t) (rowOf t p) n := by
  by_cases h0 : t.val % 8 = 0
  · refine (congrFun (tile_first m c t h0) _).trans ?_
    rw [pay1_apply, pay4_apply]
    unfold attnAt
    refine congrArg₂ softmaxDot (funext fun u => ?_) (funext fun u => ?_)
    · unfold score
      rw [mblk_apply]
      refine congrArg₂ (· + ·) (congrArg (· * cScale) (Finset.sum_congr rfl fun k _ => ?_)) rfl
      rw [projRow_q, pay2_apply, projRow_k]
    · rw [pay3_apply, projRow_v]
  · have hN : cfg0.N = 32 := N_0
    have hlt := t.isLt
    have ih := carried m c (t.val - 1) (Nat.lt_of_le_of_lt (Nat.sub_le _ _) t.isLt)
    have hb : batchOf ⟨t.val - 1, Nat.lt_of_le_of_lt (Nat.sub_le _ _) t.isLt⟩ = batchOf t :=
      Fin.ext (by show (t.val - 1) / 8 = t.val / 8; omega)
    refine (congrFun (tile_later m c t h0) _).trans ?_
    rw [pay1_apply, pay4_apply]
    unfold attnAt
    refine congrArg₂ softmaxDot (funext fun u => ?_) (funext fun u => ?_)
    · unfold score
      rw [mblk_apply]
      refine congrArg₂ (· + ·) (congrArg (· * cScale) (Finset.sum_congr rfl fun k _ => ?_)) rfl
      rw [projRow_q]
      exact congrArg (_ * ·) ((ih.1 u k).trans (by rw [hb]))
    · exact (ih.2 u n).trans (by rw [hb])

/-- The same at any index of the tile. -/
theorem tile_value' (c : Dev nD) (t : Fin cfg0.N) (j : S1x256x64.Idx) :
    (outsAt0 m c t.val t.isLt).1 j = attnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (batchOf t) (rowOf t (j 1)) (j 2) := by
  obtain ⟨z, p, n, rfl⟩ : ∃ (z : Fin 1) (p : Fin 256) (n : Fin 64), j = ix3 z p n := ⟨j 0, j 1, j 2, eq_ix3 j⟩
  obtain rfl : z = 0 := Subsingleton.elim _ _
  exact tile_value m c t p n

/-! ## From the tiles to the array -/

/-- Attention of core c's argument arrays as launched. -/
abbrev result (c : Dev nD) : Buf (Elt Ideal) ((c : Thread nD τ).loc main_v0) :=
  attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point t writes back is tile t of attention. -/
theorem flushed_eq (c : Dev nD) (t : Fin cfg0.N) :
    (dats m 0 c).flushed 10 t = ((cfg0.win 10).blk t).view.read (Elt Ideal) (result m c) := by
  rw [Value.flushed10]
  obtain ⟨-, -, -, -, -, -, -, -, -, -, e0, e1, e2⟩ := idx_facts t
  funext j
  rw [View.read_apply]
  show (outsAt0 m c t.val t.isLt).1 j = _
  rw [tile_value' m c t j]
  have hj0 : (j 0).val < 1 := (j 0).isLt
  have hj1 : (j 1).val < 256 := (j 1).isLt
  have hj2 : (j 2).val < 64 := (j 2).isLt
  have a0 : (((cfg0.win 10).blk t).view.emb j) 0 = batchOf t :=
    Fin.ext (by show win0_10.index t (0 : Fin 3) * 1 + 1 * (j 0).val = t.val / 8; omega)
  have a1 : (((cfg0.win 10).blk t).view.emb j) 1 = rowOf t (j 1) :=
    Fin.ext (by show win0_10.index t (1 : Fin 3) * 256 + 1 * (j 1).val = 256 * (t.val % 8) + (j 1).val; omega)
  have a2 : (((cfg0.win 10).blk t).view.emb j) 2 = j 2 :=
    Fin.ext (by show win0_10.index t (2 : Fin 3) * 64 + 1 * (j 2).val = (j 2).val; omega)
  show _ = attnAt _ _ _ _ _ _ _ _ _ _ ((((cfg0.win 10).blk t).view.emb j) 0) ((((cfg0.win 10).blk t).view.emb j) 1) ((((cfg0.win 10).blk t).view.emb j) 2)
  rw [a0, a1, a2]

/-- An index of the result array is in point t's tile iff each coordinate is in the tile's range on its axis. -/
theorem mem_blk (t : Fin cfg0.N) (i : S4x2048x64.Idx) :
    i ∈ ((cfg0.win 10).blk t).view.set ↔ ∀ a : Fin 3, win0_10.index t a * S1x256x64.size a ≤ (i a).val ∧ (i a).val < win0_10.index t a * S1x256x64.size a + S1x256x64.size a := by
  show i ∈ ((View.whole main_v0).slice (win0_10.rect t)).set ↔ _
  rw [View.set_slice_whole, Rect.mem_set_unit]
  exact Iff.rfl

/-- The result array after the run is attention of the arguments: row s of batch b lies in the tile of point 8·b + s / 256. -/
theorem final (c : Dev nD) : (dats m 0 c).arrAt 10 cfg0.N = result m c :=
  (dats m 0 c).arrAt_eq_of_cover 10 (result m c) (fun t _ => flushed_eq m c t) fun i => by
    have hN : cfg0.N = 32 := N_0
    have hi0 : (i 0).val < 4 := (i 0).isLt
    have hi1 : (i 1).val < 2048 := (i 1).isLt
    have hi2 : (i 2).val < 64 := (i 2).isLt
    refine ⟨⟨8 * (i 0).val + (i 1).val / 256, by omega⟩, flush0_10 _, ?_⟩
    rw [mem_blk]
    obtain ⟨-, -, -, -, -, -, -, -, -, -, e0, e1, e2⟩ := idx_facts (⟨8 * (i 0).val + (i 1).val / 256, by omega⟩ : Fin cfg0.N)
    intro a
    match a with
    | ⟨0, _⟩ => show win0_10.index _ (0 : Fin 3) * 1 ≤ (i 0).val ∧ (i 0).val < win0_10.index _ (0 : Fin 3) * 1 + 1; rw [e0]; dsimp only; omega
    | ⟨1, _⟩ => show win0_10.index _ (1 : Fin 3) * 256 ≤ (i 1).val ∧ (i 1).val < win0_10.index _ (1 : Fin 3) * 256 + 256; rw [e1]; dsimp only; omega
    | ⟨2, _⟩ => show win0_10.index _ (2 : Fin 3) * 64 ≤ (i 2).val ∧ (i 2).val < win0_10.index _ (2 : Fin 3) * 64 + 64; rw [e2]; omega

/-- The run, read: the result array at attention of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.AttnValue

end
-- ==== Proof.RefValue.lean ====
/-
  The reference's result, read one operation at a time, is attention as one function of the arguments.
-/
import proofs.«148479_j1314259993021_1_alg».proof.Proof.Gen.ReferenceIdeal.Read
import proofs.«148479_j1314259993021_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Attn

/-! ## The three projections

Each projection stage is a contraction over the model width plus the bias broadcast along batch and row. -/

section Projections

variable (x : (⟨S4x2048x1024, .f32⟩ : BufTy).Contents (Elt Ideal)) (w : (⟨S64x1024, .f32⟩ : BufTy).Contents (Elt Ideal))
  (c : (⟨S64, .f32⟩ : BufTy).Contents (Elt Ideal)) (b : Fin 4) (s : Fin 2048) (n : Fin 64)

/-- The query projection stage at (b, s, n). -/
private theorem v3_at : val_main_v3 (F := Ideal) x w c (ix3 b s n) = proj x w c b s n := by
  rw [val_main_v3_apply, val_main_v0_apply, val_main_v2_apply, val_main_v1_apply]
  unfold proj
  refine congrArg₂ (· + ·) (Finset.sum_congr rfl fun k _ => congrArg₂ (· * ·) (congrArg x ?_) (congrArg w ?_)) (congrArg c ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The key projection stage at (b, s, n). -/
private theorem v7_at : val_main_v7 (F := Ideal) x w c (ix3 b s n) = proj x w c b s n := by
  rw [val_main_v7_apply, val_main_v4_apply, val_main_v6_apply, val_main_v5_apply]
  unfold proj
  refine congrArg₂ (· + ·) (Finset.sum_congr rfl fun k _ => congrArg₂ (· * ·) (congrArg x ?_) (congrArg w ?_)) (congrArg c ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The value projection stage at (b, s, n). -/
private theorem v11_at : val_main_v11 (F := Ideal) x w c (ix3 b s n) = proj x w c b s n := by
  rw [val_main_v11_apply, val_main_v8_apply, val_main_v10_apply, val_main_v9_apply]
  unfold proj
  refine congrArg₂ (· + ·) (Finset.sum_congr rfl fun k _ => congrArg₂ (· * ·) (congrArg x ?_) (congrArg w ?_)) (congrArg c ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

end Projections

/-! ## Scores, row maximum, softmax weights

The remaining stages read the seven arguments that make the scores. -/

section Scores

variable (x0 x1 : (⟨S4x2048x1024, .f32⟩ : BufTy).Contents (Elt Ideal)) (x3 : (⟨S4x2048x2048, .f32⟩ : BufTy).Contents (Elt Ideal))
  (x4 : (⟨S64x1024, .f32⟩ : BufTy).Contents (Elt Ideal)) (x5 : (⟨S64, .f32⟩ : BufTy).Contents (Elt Ideal))
  (x6 : (⟨S64x1024, .f32⟩ : BufTy).Contents (Elt Ideal)) (x7 : (⟨S64, .f32⟩ : BufTy).Contents (Elt Ideal))
  (b : Fin 4) (s t : Fin 2048)

/-- The contraction of the projected query row against the projected key row, over the 64 features. -/
private theorem v12_at : val_main_v12 (F := Ideal) x0 x1 x4 x5 x6 x7 (ix3 b s t)
    = ∑ n : Fin 64, proj x0 x4 x5 b s n * proj x1 x6 x7 b t n := by
  rw [val_main_v12_apply]
  refine Finset.sum_congr rfl fun k _ => congrArg₂ (· * ·) ?_ ?_
  · refine Eq.trans (congrArg (val_main_v3 (F := Ideal) x0 x4 x5) ?_) (v3_at x0 x4 x5 b s k)
    exact funext fun a => Fin.ext (by match a with | ⟨0, _⟩ => rfl | ⟨1, _⟩ => rfl | ⟨2, _⟩ => rfl)
  · refine Eq.trans (congrArg (val_main_v7 (F := Ideal) x1 x6 x7) ?_) (v7_at x1 x6 x7 b t k)
    exact funext fun a => Fin.ext (by match a with | ⟨0, _⟩ => rfl | ⟨1, _⟩ => rfl | ⟨2, _⟩ => rfl)

/-- The score stage: the reference divides by the word of 8 where the specification multiplies by the word of 1/8. -/
private theorem v17_at : val_main_v17 (F := Ideal) x0 x1 x3 x4 x5 x6 x7 (ix3 b s t) = score x0 x1 x3 x4 x5 x6 x7 b s t := by
  rw [val_main_v17_apply, val_main_v14_apply, val_main_v13_apply, val_main_cst_apply, val_main_v16_apply, val_main_v15_apply,
    val_main_cst_0_apply, v12_at]
  unfold score
  exact congrArg (· + x3 (ix3 b s t) * cPen) (div_eight _)

end Scores

section RowMax

/-- A reduced index (b, s) with key coordinate k put back on the last axis is (b, s, k). -/
private theorem lift_last (h : S4x2048x2048.Reduces [2] S4x2048) (b : Fin 4) (s : Fin 2048) (k : Fin 2048) :
    h.lift (ix2 b s) k = ix3 b s k :=
  funext fun a => Fin.ext (by match a with | ⟨0, _⟩ => rfl | ⟨1, _⟩ => rfl | ⟨2, _⟩ => rfl)

/-- The reduce with a maximum body over the key axis, from the word of −∞, is the row maximum. -/
private theorem reduce_max_at (y : (⟨S4x2048x2048, .f32⟩ : BufTy).Contents (Elt Ideal)) (b : Fin 4) (s : Fin 2048) :
    Host.reduce (FloatOps.maximumf (F := Ideal) (φ := .f32)) y (val_main_cst_1 (F := Ideal)) Gen.reducesTo_S4x2048x2048_S4x2048_d2 Gen.h_S_ (ix2 b s)
      = rowMax fun t => y (ix3 b s t) := by
  have h : S4x2048x2048.Reduces [2] S4x2048 := by decide
  rw [Host.reduce_eq_fold_single (FloatOps.maximumf (F := Ideal) (φ := .f32)) y _ Gen.reducesTo_S4x2048x2048_S4x2048_d2 h Gen.h_S_]
  have hf : (y ∘ h.lift (ix2 b s)) = fun t : Fin 2048 => y (ix3 b s t) := funext fun k => congrArg y (lift_last h b s k)
  rw [hf]
  rfl

end RowMax

section Softmax

variable (x0 x1 : (⟨S4x2048x1024, .f32⟩ : BufTy).Contents (Elt Ideal)) (x3 : (⟨S4x2048x2048, .f32⟩ : BufTy).Contents (Elt Ideal))
  (x4 : (⟨S64x1024, .f32⟩ : BufTy).Contents (Elt Ideal)) (x5 : (⟨S64, .f32⟩ : BufTy).Contents (Elt Ideal))
  (x6 : (⟨S64x1024, .f32⟩ : BufTy).Contents (Elt Ideal)) (x7 : (⟨S64, .f32⟩ : BufTy).Contents (Elt Ideal))
  (b : Fin 4) (s t : Fin 2048)

/-- The row of scores of query row s in batch b, as the reference's score stage gives it. -/
private abbrev row : Fin 2048 → EReal := fun u => val_main_v17 (F := Ideal) x0 x1 x3 x4 x5 x6 x7 (ix3 b s u)

/-- The row-maximum stage: the further maximum with the word of −∞ changes nothing. -/
private theorem v20_at : val_main_v20 (F := Ideal) x0 x1 x3 x4 x5 x6 x7 (ix2 b s) = rowMax (row x0 x1 x3 x4 x5 x6 x7 b s) := by
  rw [val_main_v20_apply, val_main_v19_apply, val_main_cst_2_apply]
  unfold val_main_v18
  rw [reduce_max_at]
  exact max_negInf _

/-- The exponential stage is the unnormalised softmax weight. -/
private theorem v24_at : val_main_v24 (F := Ideal) x0 x1 x3 x4 x5 x6 x7 (ix3 b s t) = expShift (row x0 x1 x3 x4 x5 x6 x7 b s) t := by
  rw [val_main_v24_apply, val_main_v23_apply, val_main_v22_apply, val_main_v21_apply]
  have e : idx_main_v21 (idx_main_v22 (ix3 b s t)) = ix2 b s :=
    funext fun a => Fin.ext (by match a with | ⟨0, _⟩ => rfl | ⟨1, _⟩ => rfl)
  rw [e, v20_at]
  rfl

/-- The sum stage: the word of 0 plus the row's weights. -/
private theorem v25_at : val_main_v25 (F := Ideal) x0 x1 x3 x4 x5 x6 x7 (ix2 b s)
    = ∑ u : Fin 2048, expShift (row x0 x1 x3 x4 x5 x6 x7 b s) u := by
  rw [val_main_v25_apply, val_main_cst_3_apply]
  refine (congrArg (· + _) ofBits_zero).trans ((zero_add _).trans (Finset.sum_congr rfl fun k _ => ?_))
  refine Eq.trans (congrArg (val_main_v24 (F := Ideal) x0 x1 x3 x4 x5 x6 x7) ?_) (v24_at x0 x1 x3 x4 x5 x6 x7 b s k)
  exact funext fun a => Fin.ext (by match a with | ⟨0, _⟩ => rfl | ⟨1, _⟩ => rfl | ⟨2, _⟩ => rfl)

/-- The normalised weight: the exponential over the row's sum, through the two broadcasts. -/
private theorem v28_at : val_main_v28 (F := Ideal) x0 x1 x3 x4 x5 x6 x7 (ix3 b s t)
    = Ideal.div (expShift (row x0 x1 x3 x4 x5 x6 x7 b s) t) (∑ u : Fin 2048, expShift (row x0 x1 x3 x4 x5 x6 x7 b s) u) := by
  rw [val_main_v28_apply, val_main_v27_apply, val_main_v26_apply]
  have e : idx_main_v26 (idx_main_v27 (ix3 b s t)) = ix2 b s :=
    funext fun a => Fin.ext (by match a with | ⟨0, _⟩ => rfl | ⟨1, _⟩ => rfl)
  rw [e, v25_at, v24_at]
  rfl

end Softmax

/-- The reference's last stage is attention of its ten arguments. -/
theorem ref_eq_attn (x0 x1 x2 : (⟨S4x2048x1024, .f32⟩ : BufTy).Contents (Elt Ideal)) (x3 : (⟨S4x2048x2048, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (x8 : (⟨S64x1024, .f32⟩ : BufTy).Contents (Elt Ideal)) (x9 : (⟨S64, .f32⟩ : BufTy).Contents (Elt Ideal)) :
    val_main_v29 (F := Ideal) x0 x1 x2 x3 x4 x5 x6 x7 x8 x9 = attn x0 x1 x2 x3 x4 x5 x6 x7 x8 x9 := by
  funext i
  obtain ⟨b, s, n, rfl⟩ : ∃ b s n, i = ix3 b s n := ⟨i 0, i 1, i 2, eq_ix3 i⟩
  rw [val_main_v29_apply]
  show _ = softmaxDot (fun t => score x0 x1 x3 x4 x5 x6 x7 b s t) (fun t => proj x2 x8 x9 b t n)
  have hrow : (fun t => score x0 x1 x3 x4 x5 x6 x7 b s t) = row x0 x1 x3 x4 x5 x6 x7 b s :=
    funext fun t => (v17_at x0 x1 x3 x4 x5 x6 x7 b s t).symm
  rw [hrow]
  unfold softmaxDot
  refine Finset.sum_congr rfl fun k _ => congrArg₂ (· * ·) ?_ ?_
  · refine Eq.trans (congrArg (val_main_v28 (F := Ideal) x0 x1 x3 x4 x5 x6 x7) ?_) (v28_at x0 x1 x3 x4 x5 x6 x7 b s k)
    exact funext fun a => Fin.ext (by match a with | ⟨0, _⟩ => rfl | ⟨1, _⟩ => rfl | ⟨2, _⟩ => rfl)
  · refine Eq.trans (congrArg (val_main_v11 (F := Ideal) x2 x8 x9) ?_) (v11_at x2 x8 x9 b k n)
    exact funext fun a => Fin.ext (by match a with | ⟨0, _⟩ => rfl | ⟨1, _⟩ => rfl | ⟨2, _⟩ => rfl)

end Cert.ReferenceIdeal.RefValue

end
-- ==== Proof.lean ====
/-
  Single-head attention, fused in one kernel, against its plain array-program reference, over the extended reals.

  Both programs project q, k and v by an affine map to 64 features, score every query row against every key row of its
  batch by the scaled dot product plus the mask's penalty, take the softmax of each score row (the row maximum
  subtracted before the exponential) and sum the value rows by those weights. The kernel walks a grid of 4 batches by
  8 query tiles of 256 rows: at a batch's first tile it projects the batch's keys and values once into two buffers it
  carries across the batch's tiles, and at every tile it projects the 256 query rows, forms their 2048 scores in one
  dense pass and writes the tile's result rows back.

  At the ideal values the two sides are one function of the ten arguments, index by index:
    * a matrix product into a zero accumulator is the plain sum of products, on either side;
    * the kernel multiplies the scores by the word of 1/8 where the reference divides by the word of 8 — one value on
      every extended real; the mask penalty is the same word on both sides;
    * the reference takes one more maximum with −∞ after its row maximum, which changes nothing;
    * the carried projections are those of the tile's own batch, by induction over the grid points;
    * the 32 tiles written back cover the result array.
  No law used needs the inputs finite, so the precondition is never opened. The idealization rewrote nothing, so the
  kernel is its own sanctioned idealization.
-/
import proofs.«148479_j1314259993021_1_alg».proof.Defs
import proofs.«148479_j1314259993021_1_alg».proof.Proof.Gen.Kernel
import proofs.«148479_j1314259993021_1_alg».proof.Proof.Gen.Kernel.Skeleton
import proofs.«148479_j1314259993021_1_alg».proof.Proof.Gen.Kernel.Launch
import proofs.«148479_j1314259993021_1_alg».proof.Proof.Gen.Kernel.Points
import proofs.«148479_j1314259993021_1_alg».proof.Proof.Gen.Kernel.Frame
import proofs.«148479_j1314259993021_1_alg».proof.Proof.Gen.KernelIdeal
import proofs.«148479_j1314259993021_1_alg».proof.Proof.Gen.KernelIdeal.Skeleton
import proofs.«148479_j1314259993021_1_alg».proof.Proof.Gen.KernelIdeal.Launch
import proofs.«148479_j1314259993021_1_alg».proof.Proof.Gen.KernelIdeal.Points
import proofs.«148479_j1314259993021_1_alg».proof.Proof.Gen.KernelIdeal.Frame
import proofs.«148479_j1314259993021_1_alg».proof.Proof.Gen.ReferenceIdeal
import proofs.«148479_j1314259993021_1_alg».proof.Proof.Gen.Pre_finite_inputs
import proofs.«148479_j1314259993021_1_alg».proof.Proof.Gen.KernelIdeal.Value
import proofs.«148479_j1314259993021_1_alg».proof.Proof.Gen.ReferenceIdeal.Run
import proofs.«148479_j1314259993021_1_alg».proof.Proof.Gen.ReferenceIdeal.Read
import proofs.«148479_j1314259993021_1_alg».proof.Proof.KernelValue
import proofs.«148479_j1314259993021_1_alg».proof.Proof.RefValue
import Idealize.ShloMosaic.Adequacy
import Idealize.ShloMosaic.Init

noncomputable section

namespace Cert.Proof

open Idealize.ShloMosaic Idealize.ShloMosaic.TcCoe Idealize.SL.Sem

/-- The kernel at the word level runs to the end and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array ends at attention of its arguments and the reference's at the
    same function of arguments that agree. -/
theorem algebraic : Cert.algebraic_KernelIdeal_ReferenceIdeal := by
  intro m ρ m' ρ' _ hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v29_eq, Cert.ReferenceIdeal.RefValue.ref_eq_attn, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
